-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x600000 : Shape := ⟨2, ![1, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 4294917296#32
  let main_v36 : IVec S600000 32 := broadcastInDim S600000 ![] bcast_S_S600000 main_c_12
  let main_v37 : IVec S600000 1 := cmpi .sge main_v35 main_v36
  let main_v38 : IVec S1x600000 32 := (extractStridedSlice S1x600000 ![0, 0] · slices_S2x600000_S1x600000_0_0) main_arg1
  let main_v39 : IVec S600000 32 := shapeCast S600000 main_v38 shapeCasts_S1x600000_S600000
  let main_c_13 : IVec S_ 32 := constantI S_ 32 50000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  main_v44

def fn_part1 {F : FTy → Type} [FloatOps F] (main_arg1 : IVec S2x600000 32) (main_arg6 : FVec F S128x1 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : IVec S600000 32) (main_arg3 : FVec F S128x128 .f32) (main_arg4 : FVec F S128x128 .f32) (main_arg5 : FVec F S128 .f32) (main_arg6 : FVec F S128x1 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x1 : Shape := ⟨2, ![1, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 89
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S1, .i32⟩
  | .hbm, ⟨35, _⟩ => ⟨S_, .i32⟩
  | .hbm, ⟨36, _⟩ => ⟨S600000x1, .i32⟩
  | .hbm, ⟨37, _⟩ => ⟨S600000x1, .i1⟩
  | .hbm, ⟨38, _⟩ => ⟨S1x1, .i32⟩
  | .hbm, ⟨39, _⟩ => ⟨S600000x1, .i32⟩
  | .hbm, ⟨40, _⟩ => ⟨S600000x1, .i1⟩
  | .hbm, ⟨41, _⟩ => ⟨S600000x1, .i1⟩
  | .hbm, ⟨42, _⟩ => ⟨S_, .i1⟩
  | .hbm, ⟨43, _⟩ => ⟨S600000, .i1⟩
  | .hbm, ⟨44, _⟩ => ⟨S600000x128, .f32⟩
  | .hbm, ⟨45, _⟩ => ⟨S600000x128, .i1⟩
  | .hbm, ⟨46, _⟩ => ⟨S_, .f32⟩
  | .hbm, ⟨47, _⟩ => ⟨S600000x128, .f32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S1, .i32⟩
  | .hbm, ⟨66, _⟩ => ⟨S_, .i32⟩
  | .hbm, ⟨67, _⟩ => ⟨S600000x1, .i32⟩
  | .hbm, ⟨68, _⟩ => ⟨S600000x1, .i1⟩
  | .hbm, ⟨69, _⟩ => ⟨S1x1, .i32⟩
  | .hbm, ⟨70, _⟩ => ⟨S600000x1, .i32⟩
  | .hbm, ⟨71, _⟩ => ⟨S600000x1, .i1⟩
  | .hbm, ⟨72, _⟩ => ⟨S600000x1, .i1⟩
  | .hbm, ⟨73, _⟩ => ⟨S_, .i1⟩
  | .hbm, ⟨74, _⟩ => ⟨S600000, .i1⟩
  | .hbm, ⟨75, _⟩ => ⟨S600000x128, .f32⟩
  | .hbm, ⟨76, _⟩ => ⟨S600000x128, .i1⟩
  | .hbm, ⟨77, _⟩ => ⟨S_, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x1, .f32⟩
  | .hbm, ⟨87, _⟩ => ⟨S50000x1, .f32⟩
  | .hbm, ⟨88, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x1, .f32⟩
  | .local _ .vmem, ⟨14, _⟩ => ⟨S128x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v21 : Ref sig .tc := ⟨.hbm, 79, rfl⟩
abbrev main_cst_4 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x1, .f32⟩
  | .hbm, ⟨66, _⟩ => ⟨S50000x1, .f32⟩
  | .hbm, ⟨67, _⟩ => ⟨S50000x1, .f32⟩
  | .hbm, ⟨68, _⟩ => ⟨S1x1, .f32⟩
  | .hbm, ⟨69, _⟩ => ⟨S50000x1, .f32⟩
  | .hbm, ⟨70, _⟩ => ⟨S50000x1, .f32⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Edges.lean ====
/-
  The graph side of the computation, shared by both layers and by both programs: the edge list is a
  [2 × 600000] array of node numbers, row 0 the source and row 1 the destination of each edge.

  * `invDeg`: one over the in-degree of every node (the number of edges whose destination it is), the degree
    clamped below at one so that a node without in-edges divides by one;
  * `srcCol`: the source node of every edge, a negative number read from the end of the node list (−1 the last node);
  * `meanAgg e y`: for every node the sum of the rows `y[src]` over its in-edges, times `invDeg` — the mean over its
    in-neighbours;
  * `takeFill` / `meanAggFill`: the same with the rows fetched by a take that FILLS a row whose (wrapped) source number
    lies outside [0, 49999] with the not-a-number pattern; `inRange` is that test, edge by edge.
-/
import proofs.«417185_j13804024889628_2_alg».proof.Proof.Gen.KernelIdeal

noncomputable section

namespace Cert.KernelIdeal.Edges

open Cert.KernelIdeal Cert.KernelIdeal.Facts₀ Cert.KernelIdeal.Facts Idealize.ShloMosaic

variable {F : FTy → Type} [FloatOps F]

/-- Row 0 of the edge list: each edge's source node. -/
def src (e : IVec S2x600000 32) : IVec S600000 32 :=
  shapeCast S600000 (extractStridedSlice S1x600000 ![0, 0] e slices_S2x600000_S1x600000_0_0) shapeCasts_S1x600000_S600000

/-- Row 1 of the edge list: each edge's destination node. -/
def dst (e : IVec S2x600000 32) : IVec S600000 32 :=
  shapeCast S600000 (extractStridedSlice S1x600000 ![1, 0] e slices_S2x600000_S1x600000_1_0) shapeCasts_S1x600000_S600000

/-- The destinations as a column of scatter indices. -/
def dstCol (e : IVec S2x600000 32) : IVec S600000x1 32 :=
  broadcastInDim S600000x1 ![0] bcast_S600000_S600000x1_0 (dst e)

/-- The source of every edge with a negative number counted from the end (`s + 50000` for `s < 0`). -/
def srcWrapped (e : IVec S2x600000 32) : IVec S600000 32 :=
  select (cmpi .slt (src e) (broadcastInDim S600000 ![] bcast_S_S600000 (constantI S_ 32 0#32)))
    (addi (src e) (broadcastInDim S600000 ![] bcast_S_S600000 (constantI S_ 32 50000#32))) (src e)

/-- The wrapped sources as a column of gather indices. -/
def srcCol (e : IVec S2x600000 32) : IVec S600000x1 32 :=
  broadcastInDim S600000x1 ![0] bcast_S600000_S600000x1_0 (srcWrapped e)

/-- One over the in-degree of each node, the degree clamped below at one; a [50000 × 1] column. -/
def invDeg (e : IVec S2x600000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S600000x1_S600000_n_0_0_1 (broadcastInDim S50000 ![] bcast_S_S50000 (constant S_ .f32 0x00000000#32))
          (dstCol e) (broadcastInDim S600000 ![] bcast_S_S600000 (constant S_ .f32 0x3F800000#32)))
        (broadcastInDim S50000 ![] bcast_S_S50000 (constant S_ .f32 0x3F800000#32))))

/-- Sum the given edge rows into their destination nodes and divide by the in-degree. -/
def meanOf (e : IVec S2x600000 32) (rows : FVec F S600000x128 .f32) : FVec F S50000x128 .f32 :=
  mulf
    (Host.scatterAdd scatter_S50000x128_S600000x1_S600000x128_1_0_0_1
      (broadcastInDim S50000x128 ![] bcast_S_S50000x128 (constant S_ .f32 0x00000000#32)) (dstCol e) rows)
    (broadcastInDim S50000x128 ![0, 1] bcast_S50000x1_S50000x128_0_1 (invDeg (F := F) e))

/-- The row of `y` at each edge's source node. -/
def rowsOf (e : IVec S2x600000 32) (y : FVec F S50000x128 .f32) : FVec F S600000x128 .f32 :=
  Host.gather gather_S50000x128_S600000x1_S600000x128_1_0_n_n_0_1_1128 y (srcCol e)

/-- The mean of `y` over each node's in-neighbours. -/
def meanAgg (e : IVec S2x600000 32) (y : FVec F S50000x128 .f32) : FVec F S50000x128 .f32 :=
  meanOf e (rowsOf e y)

/-- Per edge: is the wrapped source number a node, 0 ≤ s ≤ 49999? (The conjunction over the one column of the
    index column.) -/
def inRange (e : IVec S2x600000 32) : IVec S600000 1 :=
  Host.reduce IntOp.andi
    (andi (cmpi .sge (srcCol e) (broadcastInDim S600000x1 ![] bcast_S_S600000x1 (constantI S_ 32 0#32)))
      (cmpi .sle (srcCol e) (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- The rows fetched by a filling take: the row of `y` where the source is in range, the not-a-number pattern elsewhere. -/
def rowsFill (e : IVec S2x600000 32) (y : FVec F S50000x128 .f32) : FVec F S600000x128 .f32 :=
  select (broadcastInDim S600000x128 ![0] bcast_S600000_S600000x128_0 (inRange e)) (rowsOf e y)
    (broadcastInDim S600000x128 ![] bcast_S_S600000x128 (constant S_ .f32 0x7FC00000#32))

/-- The mean over in-neighbours with the rows fetched by the filling take. -/
def meanAggFill (e : IVec S2x600000 32) (y : FVec F S50000x128 .f32) : FVec F S50000x128 .f32 :=
  meanOf e (rowsFill e y)

/-- Every edge's source number names a node, counted from the front or from the end: −50000 ≤ s < 50000. -/
def SrcInRange (e : IVec S2x600000 32) : Prop :=
  ∀ i : S600000.Idx, -50000 ≤ (src e i).toInt ∧ (src e i).toInt < 50000

end Cert.KernelIdeal.Edges

end
-- ==== Proof.Spec.lean ====
/-
  Two-layer mean-aggregation GraphSAGE over 50000 nodes with 128 features, read over the extended reals.

  One dense update takes the node rows `x` and the rows `a` of neighbour means and returns, at node `r`
  and output column `j`,
      (∑ₖ x[r,k]·Wₛ[k,j]  +  ∑ₖ a[r,k]·Wₙ[k,j])  +  b[j],
  the two matrix products as plain sums over the 128 input features (no rounding is left at the ideal
  values, so the order in which a product is accumulated, and whether a row is handled alone or in a tile
  of 2000 rows, cannot matter).  The first layer clamps this at zero from below, the second (output width 1)
  passes it through the logistic function 1 / (1 + e^(-z)).
-/
import Idealize.ShloMosaic.PureOps.Ideal
import Idealize.ShloMosaic.Lib.ValueIdx

noncomputable section

namespace Cert.Sage

open Idealize.ShloMosaic

/-- Entry (row of `i`, feature `k`) of an [n × 128] array of node rows, for `i` an index of an [n × c] result. -/
abbrev featAt {n c : Nat} (i : (⟨2, ![n, c]⟩ : Shape).Idx) (k : Fin 128) : (⟨2, ![n, 128]⟩ : Shape).Idx := fun a => match a with
  | ⟨0, _⟩ => ⟨(i 0).val, (i 0).isLt⟩
  | ⟨1, _⟩ => ⟨k.val, k.isLt⟩

/-- Entry (feature `k`, column of `i`) of a [128 × c] weight matrix. -/
abbrev weightAt {n c : Nat} (i : (⟨2, ![n, c]⟩ : Shape).Idx) (k : Fin 128) : (⟨2, ![128, c]⟩ : Shape).Idx := fun a => match a with
  | ⟨0, _⟩ => ⟨k.val, k.isLt⟩
  | ⟨1, _⟩ => ⟨(i 1).val, (i 1).isLt⟩

/-- Entry (0, column of `i`) of a bias kept as a [1 × c] row. -/
abbrev biasAt {n c : Nat} (i : (⟨2, ![n, c]⟩ : Shape).Idx) : (⟨2, ![1, c]⟩ : Shape).Idx := fun a => match a with
  | ⟨0, _⟩ => ⟨0, Nat.one_pos⟩
  | ⟨1, _⟩ => ⟨(i 1).val, (i 1).isLt⟩

/-- The affine part of one update at node row and column `i`: self product plus neighbour product, plus bias. -/
def dense {n c : Nat} (x a : (⟨2, ![n, 128]⟩ : Shape).Idx → Ideal .f32) (ws wn : (⟨2, ![128, c]⟩ : Shape).Idx → Ideal .f32)
    (b : (⟨2, ![1, c]⟩ : Shape).Idx → Ideal .f32) (i : (⟨2, ![n, c]⟩ : Shape).Idx) : Ideal .f32 :=
  FloatOps.addf (F := Ideal) (FloatOps.addf (F := Ideal) (∑ k : Fin 128, x (featAt i k) * ws (weightAt i k)) (∑ k : Fin 128, a (featAt i k) * wn (weightAt i k)))
    (b (biasAt i))

/-- The hidden layer: the update clamped at zero from below. -/
def hidden (x a : (⟨2, ![50000, 128]⟩ : Shape).Idx → Ideal .f32) (ws wn : (⟨2, ![128, 128]⟩ : Shape).Idx → Ideal .f32)
    (b : (⟨2, ![1, 128]⟩ : Shape).Idx → Ideal .f32) : (⟨2, ![50000, 128]⟩ : Shape).Idx → Ideal .f32 :=
  fun i => FloatOps.maximumf (F := Ideal) (dense x a ws wn b i) (FloatOps.ofBits (F := Ideal) .f32 0x00000000#32)

/-- The output layer, one column wide: the logistic function of the update. -/
def score (h a : (⟨2, ![50000, 128]⟩ : Shape).Idx → Ideal .f32) (ws wn : (⟨2, ![128, 1]⟩ : Shape).Idx → Ideal .f32)
    (b : (⟨2, ![1, 1]⟩ : Shape).Idx → Ideal .f32) : (⟨2, ![50000, 1]⟩ : Shape).Idx → Ideal .f32 :=
  fun i => FloatOps.logistic (F := Ideal) (dense h a ws wn b i)

end Cert.Sage

end
-- ==== Proof.Model.lean ====
/-
  The whole computation as one function of the nine arguments, over the extended reals: the hidden layer from the node
  features and their neighbour means, the output layer from the hidden layer and ITS neighbour means, the [50000 × 1] column
  read as a vector. It is stated for any neighbour-mean operator `agg` (the plain one and the one built on the filling take).
-/
import proofs.«417185_j13804024889628_2_alg».proof.Proof.Spec
import proofs.«417185_j13804024889628_2_alg».proof.Proof.Edges

noncomputable section

namespace Cert.KernelIdeal.Model

open Cert.KernelIdeal Cert.KernelIdeal.Facts₀ Cert.KernelIdeal.Facts Idealize.ShloMosaic

/-- The hidden layer: the first update of the features and their neighbour means, clamped at zero; the bias read as a row. -/
def hiddenOf (agg : IVec S2x600000 32 → FVec Ideal S50000x128 .f32 → FVec Ideal S50000x128 .f32)
    (x : FVec Ideal S50000x128 .f32) (e : IVec S2x600000 32) (w3 w4 : FVec Ideal S128x128 .f32) (b5 : FVec Ideal S128 .f32) :
    FVec Ideal S50000x128 .f32 :=
  Cert.Sage.hidden x (agg e x) w3 w4 (shapeCast S1x128 b5 shapeCasts_S128_S1x128)

/-- The result: the second update of the hidden layer and its neighbour means through the logistic function, as a vector. -/
def outOf (agg : IVec S2x600000 32 → FVec Ideal S50000x128 .f32 → FVec Ideal S50000x128 .f32)
    (x : FVec Ideal S50000x128 .f32) (e : IVec S2x600000 32) (w3 w4 : FVec Ideal S128x128 .f32) (b5 : FVec Ideal S128 .f32)
    (w6 w7 : FVec Ideal S128x1 .f32) (b8 : FVec Ideal S1 .f32) : FVec Ideal S50000 .f32 :=
  shapeCast S50000
    (Cert.Sage.score (hiddenOf agg x e w3 w4 b5) (agg e (hiddenOf agg x e w3 w4 b5)) w6 w7 (shapeCast S1x1 b8 shapeCasts_S1_S1x1))
    shapeCasts_S50000x1_S50000

end Cert.KernelIdeal.Model

end
-- ==== Proof.HiddenTiles.lean ====
/-
  The first dense update, tile by tile. The 50000 node rows are cut into 25 tiles of 2000 rows; at tile `t` the body
  multiplies the tile's rows of `x` and of the neighbour means by the two whole [128 × 128] weight matrices, adds the bias
  row and clamps at zero. Row `2000·t + r` of the result therefore depends on row `2000·t + r` of the two inputs only,
  and is the hidden layer's value there: every tile is the restriction of ONE function of the whole arrays, the tiles cover
  the array, so the array the region leaves IS that function.
-/
import proofs.«417185_j13804024889628_2_alg».proof.Proof.Gen.KernelIdeal.Frame
import proofs.«417185_j13804024889628_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenTiles

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## One tile's product: the row of the left factor against the column of the right -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_feat (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_feat (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile's product into the zero accumulator, at row and column `i`: the plain sum over the 128 features. -/
theorem tile_matmul_apply (l : FVec Ideal S2000x128 .bf16) (r : FVec Ideal S128x128 .bf16) (i : S2000x128.Idx) :
    matmul (F := Ideal) dot_S2000x128_S128x128_S2000x128_1_0_0_1_n_n none l r (constant (F := Ideal) S2000x128 .f32 0x00000000#32) i
      = ∑ k : Fin 128, l (Cert.Sage.featAt i k) * r (Cert.Sage.weightAt i k) := by
  show FloatOps.matmul dot_S2000x128_S128x128_S2000x128_1_0_0_1_n_n none l r (constant (F := Ideal) S2000x128 .f32 0x00000000#32) i = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = Cert.Sage.featAt i k := funext fun a => Fin.ext (by
    match a with
    | ⟨0, _⟩ => exact lhs_row _ _
    | ⟨1, _⟩ => exact (lhs_feat _ _).trans hk)
  have er : dot_S2000x128_S128x128_S2000x128_1_0_0_1_n_n.rhsIdx i ((ValueIdx.contrEquiv1 dot_S2000x128_S128x128_S2000x128_1_0_0_1_n_n 128 rfl rfl).symm k) = Cert.Sage.weightAt i k := funext fun a => Fin.ext (by
    match a with
    | ⟨0, _⟩ => exact (rhs_feat _ _).trans hk
    | ⟨1, _⟩ => exact rhs_col _ _)
  rw [el, er]

/-- The body's arithmetic at row and column `y` of a tile: the dense update of the tile's rows, clamped at zero. -/
theorem pay_apply (x0 x1 : Vec Ideal S2000x128 .f32) (x2 x3 : Vec Ideal S128x128 .f32) (x4 : Vec Ideal S1x128 .f32) (y : S2000x128.Idx) :
    k0_pay1 (F := Ideal) x0 x1 x2 x3 x4 y
      = FloatOps.maximumf (F := Ideal) (Cert.Sage.dense x0 x1 x2 x3 x4 y) (FloatOps.ofBits (F := Ideal) .f32 0x00000000#32) := by
  unfold k0_pay1 Cert.Sage.dense
  show FloatOps.maximumf (F := Ideal)
      (FloatOps.addf (F := Ideal)
        (FloatOps.addf (F := Ideal)
          (matmul (F := Ideal) dot_S2000x128_S128x128_S2000x128_1_0_0_1_n_n none (truncf .bf16 x0 bitsLt_bf16_f32) (truncf .bf16 x2 bitsLt_bf16_f32) (constant (F := Ideal) S2000x128 .f32 0x00000000#32) y)
          (matmul (F := Ideal) dot_S2000x128_S128x128_S2000x128_1_0_0_1_n_n none (truncf .bf16 (shapeCast S2000x128 x1 shapeCasts_S2000x128_S2000x128) bitsLt_bf16_f32) (truncf .bf16 x3 bitsLt_bf16_f32) (constant (F := Ideal) S2000x128 .f32 0x00000000#32) y))
        (broadcastTo S2000x128 (shapeCast S1x128 x4 shapeCasts_S1x128_S1x128) broadcasts_S1x128_S2000x128 y))
      (Scalar.ofBits (F := Ideal) .f32 0x00000000#32) = _
  rw [tile_matmul_apply, tile_matmul_apply, shapeCast_self, shapeCast_self]
  rw [broadcastTo_apply x4 broadcasts_S1x128_S2000x128 y (Cert.Sage.biasAt y) (fun a => by
    match a with
    | ⟨0, _⟩ => show 0 = if (1 : Nat) = 1 then 0 else (y 0).val; rw [if_pos rfl]
    | ⟨1, _⟩ => show (y 1).val = if (128 : Nat) = 1 then 0 else (y 1).val; rw [if_neg (by decide)])]
  rfl

/-! ## From the tiles to the array -/

theorem hz : (![0, 0] : Fin 2 → Nat) = fun _ => 0 := funext fun a => by fin_cases a <;> rfl

/-- The printed index maps, decided once over the 25 tiles: the node rows, the neighbour means and the result move
    with the tile; the two weight matrices and the bias row stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The update at row `r` of tile `t`, computed from the tile's rows and the whole weights, is the update of the
    whole arrays at row `2000·t + r`: the same 128 products, read at the same entries. -/
theorem dense_tile (t : Fin cfg0.N) (X0 X1 : S50000x128.Idx → Ideal .f32) (X2 X3 : S128x128.Idx → Ideal .f32)
    (X4 : S1x128.Idx → Ideal .f32) (j : S2000x128.Idx) :
    Cert.Sage.dense (n := 2000) (c := 128) (fun y => X0 (((cfg0.win 0).blk t).view.emb y)) (fun y => X1 (((cfg0.win 1).blk t).view.emb y))
        (fun y => X2 (((cfg0.win 2).blk t).view.emb y)) (fun y => X3 (((cfg0.win 3).blk t).view.emb y))
        (fun y => X4 (((cfg0.win 4).blk t).view.emb y)) j
      = Cert.Sage.dense (n := 50000) (c := 128) X0 X1 X2 X3 X4 (((cfg0.win 5).blk t).view.emb j) := by
  obtain ⟨e00, e01, e10, e11, e20, e21, e30, e31, e40, e41, e50, e51⟩ := idx_facts t
  have h0 : ∀ k : Fin 128, ((cfg0.win 0).blk t).view.emb (Cert.Sage.featAt (n := 2000) (c := 128) j k) = Cert.Sage.featAt (n := 50000) (c := 128) (((cfg0.win 5).blk t).view.emb j) k := by
    intro k; funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have h1 : ∀ k : Fin 128, ((cfg0.win 1).blk t).view.emb (Cert.Sage.featAt (n := 2000) (c := 128) j k) = Cert.Sage.featAt (n := 50000) (c := 128) (((cfg0.win 5).blk t).view.emb j) k := by
    intro k; funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  have h2 : ∀ k : Fin 128, ((cfg0.win 2).blk t).view.emb (Cert.Sage.weightAt (n := 2000) (c := 128) j k) = Cert.Sage.weightAt (n := 50000) (c := 128) (((cfg0.win 5).blk t).view.emb j) k := by
    intro k; funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have h3 : ∀ k : Fin 128, ((cfg0.win 3).blk t).view.emb (Cert.Sage.weightAt (n := 2000) (c := 128) j k) = Cert.Sage.weightAt (n := 50000) (c := 128) (((cfg0.win 5).blk t).view.emb j) k := by
    intro k; funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : ((cfg0.win 4).blk t).view.emb (Cert.Sage.biasAt (n := 2000) (c := 128) j) = Cert.Sage.biasAt (n := 50000) (c := 128) (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  unfold Cert.Sage.dense
  simp only [h0, h1, h2, h3, h4]

/-- What tile `t` writes back is tile `t` of the hidden layer of the arrays the region found. -/
theorem flushed_eq (c : Dev nD) (t : Fin cfg0.N) :
    (dat0 (F := Ideal) V c).flushed 5 t = ((cfg0.win 5).blk t).view.read (Elt Ideal)
      (Cert.Sage.hidden (V c main_arg0) (V c main_v18) (V c main_arg3) (V c main_arg4) (V c main_v19)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  refine (pay_apply (iblk0 V c 0 t) (iblk0 V c 1 t) (iblk0 V c 2 t) (iblk0 V c 3 t) (iblk0 V c 4 t) j).trans ?_
  exact congrArg (fun z => FloatOps.maximumf (F := Ideal) z (FloatOps.ofBits (F := Ideal) .f32 0x00000000#32))
    (dense_tile t (V c main_arg0) (V c main_v18) (V c main_arg3) (V c main_arg4) (V c main_v19) j)

/-- A row and column of the array is in tile `t` iff each coordinate is in the tile's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- The 25 tiles cover the array: row `r` lies in tile `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show (i 0).val / 2000 < 25; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The array the first region leaves is the hidden layer of the arrays it found. -/
theorem arr0 (c : Dev nD) :
    (dat0 (F := Ideal) V c).arrAt 5 cfg0.N
      = Cert.Sage.hidden (V c main_arg0) (V c main_v18) (V c main_arg3) (V c main_arg4) (V c main_v19) :=
  (dat0 (F := Ideal) V c).arrAt_eq_of_cover 5 _ (fun t _ => flushed_eq V c t) cover

end Cert.KernelIdeal.HiddenTiles

end
-- ==== Proof.ScoreTiles.lean ====
/-
  The second dense update, tile by tile: 25 tiles of 2000 node rows, the weights two [128 × 1] columns, the bias one
  number, the result one column passed through the logistic function. Row `2000·t + r` of the result depends on that row
  of the two inputs only, so the tiles are restrictions of one function of the whole arrays and cover the array.
-/
import proofs.«417185_j13804024889628_2_alg».proof.Proof.Gen.KernelIdeal.Frame
import proofs.«417185_j13804024889628_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScoreTiles

open Cert.KernelIdeal Cert.KernelIdeal.Gen Idealize.ShloMosaic Idealize.ShloMosaic.TcCoe Idealize.SL.Sem
open Idealize.ShloMosaic.Pipeline (Dat)

/-! ## One tile: the body's arithmetic at an index of the tile -/

/-- The row of the left operand a product reads on axis 0 is the result's row. -/
theorem lhs_tile_0 (j : S2000x1.Idx) (q : dot_S2000x128_S128x1_S2000x1_1_0_0_1_n_n.contr.Idx) :
    (dot_S2000x128_S128x1_S2000x1_1_0_0_1_n_n.lhsIdx j q 0).val = (j 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- On axis 1 the left operand is read at the summation index. -/
theorem lhs_tile_1 (j : S2000x1.Idx) (q : dot_S2000x128_S128x1_S2000x1_1_0_0_1_n_n.contr.Idx) :
    (dot_S2000x128_S128x1_S2000x1_1_0_0_1_n_n.lhsIdx j q 1).val = (q ⟨0, by decide⟩).val :=
  dot_S2000x128_S128x1_S2000x1_1_0_0_1_n_n.lhsIdx_val_of_single rfl j q
/-- On axis 0 the right operand is read at the summation index. -/
theorem rhs_tile_0 (j : S2000x1.Idx) (q : dot_S2000x128_S128x1_S2000x1_1_0_0_1_n_n.contr.Idx) :
    (dot_S2000x128_S128x1_S2000x1_1_0_0_1_n_n.rhsIdx j q 0).val = (q ⟨0, by decide⟩).val :=
  dot_S2000x128_S128x1_S2000x1_1_0_0_1_n_n.rhsIdx_val_of_single rfl j q
/-- The column of the right operand a product reads on axis 1 is the result's column. -/
theorem rhs_tile_1 (j : S2000x1.Idx) (q : dot_S2000x128_S128x1_S2000x1_1_0_0_1_n_n.contr.Idx) :
    (dot_S2000x128_S128x1_S2000x1_1_0_0_1_n_n.rhsIdx j q 1).val = (j 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A tile's matrix product into the zero accumulator, read at an index of the tile: the plain sum over the 128
    features of row entry times weight entry. -/
theorem tile_product_apply (x : FVec Ideal S2000x128 .bf16) (w : FVec Ideal S128x1 .bf16) (j : S2000x1.Idx) :
    matmul (F := Ideal) dot_S2000x128_S128x1_S2000x1_1_0_0_1_n_n none x w (constant (F := Ideal) S2000x1 .f32 0x00000000#32) j
      = ∑ k : Fin 128, x (Cert.Sage.featAt j k) * w (Cert.Sage.weightAt j k) := by
  show FloatOps.matmul dot_S2000x128_S128x1_S2000x1_1_0_0_1_n_n none x w (constant S2000x1 .f32 0x00000000#32) j = _
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx j ((ValueIdx.contrEquiv1 dot_S2000x128_S128x1_S2000x1_1_0_0_1_n_n 128 rfl rfl).symm k) = Cert.Sage.featAt j k := funext fun a => Fin.ext (by
    match a with
    | ⟨0, _⟩ => exact lhs_tile_0 _ _
    | ⟨1, _⟩ => exact (lhs_tile_1 _ _).trans hk)
  have er : dot_S2000x128_S128x1_S2000x1_1_0_0_1_n_n.rhsIdx j ((ValueIdx.contrEquiv1 dot_S2000x128_S128x1_S2000x1_1_0_0_1_n_n 128 rfl rfl).symm k) = Cert.Sage.weightAt j k := funext fun a => Fin.ext (by
    match a with
    | ⟨0, _⟩ => exact (rhs_tile_0 _ _).trans hk
    | ⟨1, _⟩ => exact rhs_tile_1 _ _)
  rw [el, er]

/-- The body's result at an index of the tile is the logistic function of the affine update of the tile's blocks there. -/
theorem tile_apply (x0 x1 : Vec Ideal S2000x128 .f32) (x2 x3 : Vec Ideal S128x1 .f32) (x4 : Vec Ideal S1x1 .f32) (j : S2000x1.Idx) :
    k1_pay1 (F := Ideal) x0 x1 x2 x3 x4 j = FloatOps.logistic (F := Ideal) (Cert.Sage.dense x0 x1 x2 x3 x4 j) := by
  unfold k1_pay1 Cert.Sage.dense
  show FloatOps.logistic (F := Ideal) (FloatOps.addf (F := Ideal) (FloatOps.addf (F := Ideal)
      (matmul (F := Ideal) dot_S2000x128_S128x1_S2000x1_1_0_0_1_n_n none (truncf .bf16 (shapeCast S2000x128 x0 shapeCasts_S2000x128_S2000x128) bitsLt_bf16_f32) (truncf .bf16 x2 bitsLt_bf16_f32) (constant (F := Ideal) S2000x1 .f32 0x00000000#32) j)
      (matmul (F := Ideal) dot_S2000x128_S128x1_S2000x1_1_0_0_1_n_n none (truncf .bf16 (shapeCast S2000x128 x1 shapeCasts_S2000x128_S2000x128) bitsLt_bf16_f32) (truncf .bf16 x3 bitsLt_bf16_f32) (constant (F := Ideal) S2000x1 .f32 0x00000000#32) j))
      (broadcastTo S2000x1 (shapeCast S1x1 x4 shapeCasts_S1x1_S1x1) broadcasts_S1x1_S2000x1 j)) = _
  rw [tile_product_apply, tile_product_apply, shapeCast_self, shapeCast_self, shapeCast_self]
  rw [broadcastTo_apply x4 broadcasts_S1x1_S2000x1 j (Cert.Sage.biasAt j) (fun a => match a with
    | ⟨0, _⟩ => by show 0 = if (1 : Nat) = 1 then 0 else (j 0).val; rw [if_pos rfl]
    | ⟨1, _⟩ => by show (j 1).val = if (1 : Nat) = 1 then 0 else (j 1).val; rw [if_pos rfl]; have h : (j 1).val < 1 := (j 1).isLt; omega)]
  rfl

variable (V : (c : Dev nD) → (b : Ref sig .tc) → Buf (Elt Ideal) ((c : Thread nD τ).loc b))

/-! ## From tiles to the array -/

/-- The body reads and writes each staging buffer from offset zero on both axes. -/
theorem hz : (![0, 0] : Fin 2 → Nat) = fun _ => 0 := funext fun a => by fin_cases a <;> rfl

/-- The printed index maps, decided over the 25 grid points: the two row inputs and the result sit at tile `t` on the row
    axis and at block 0 on the other; the weights and the bias sit at block 0 on both axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The affine update of tile `t`'s blocks at an index of the tile is the update of the whole arrays at the index the
    result's block puts it at: every entry a sum reads is the same entry of the array. -/
theorem dense_tile (c : Dev nD) (t : Fin cfg1.N) (j : S2000x1.Idx) :
    Cert.Sage.dense (iblk1 (F := Ideal) V c 0 t) (iblk1 (F := Ideal) V c 1 t) (iblk1 (F := Ideal) V c 2 t) (iblk1 (F := Ideal) V c 3 t) (iblk1 (F := Ideal) V c 4 t) j
      = Cert.Sage.dense (V c main_v20) (V c main_v26) (V c main_arg6) (V c main_arg7) (V c main_v27) (((cfg1.win 5).blk t).view.emb j) := by
  obtain ⟨e00, e01, e10, e11, e20, e21, e30, e31, e40, e41, e50, e51⟩ := idx_facts t
  have hj0 : (j 0).val < 2000 := (j 0).isLt
  have hj1 : (j 1).val < 1 := (j 1).isLt
  have h0 : ∀ k : Fin 128, iblk1 (F := Ideal) V c 0 t (Cert.Sage.featAt j k) = V c main_v20 (Cert.Sage.featAt (((cfg1.win 5).blk t).view.emb j) k) := fun k => by
    show V c main_v20 (((cfg1.win 0).blk t).view.emb (Cert.Sage.featAt j k)) = _
    refine congrArg (V c main_v20) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have h1 : ∀ k : Fin 128, iblk1 (F := Ideal) V c 1 t (Cert.Sage.featAt j k) = V c main_v26 (Cert.Sage.featAt (((cfg1.win 5).blk t).view.emb j) k) := fun k => by
    show V c main_v26 (((cfg1.win 1).blk t).view.emb (Cert.Sage.featAt j k)) = _
    refine congrArg (V c main_v26) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  have h2 : ∀ k : Fin 128, iblk1 (F := Ideal) V c 2 t (Cert.Sage.weightAt j k) = V c main_arg6 (Cert.Sage.weightAt (((cfg1.win 5).blk t).view.emb j) k) := fun k => by
    show V c main_arg6 (((cfg1.win 2).blk t).view.emb (Cert.Sage.weightAt j k)) = _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 1 + 1 * (j 1).val = win1_5.index t (1 : Fin 2) * 1 + 1 * (j 1).val; omega
  have h3 : ∀ k : Fin 128, iblk1 (F := Ideal) V c 3 t (Cert.Sage.weightAt j k) = V c main_arg7 (Cert.Sage.weightAt (((cfg1.win 5).blk t).view.emb j) k) := fun k => by
    show V c main_arg7 (((cfg1.win 3).blk t).view.emb (Cert.Sage.weightAt j k)) = _
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 1 + 1 * (j 1).val = win1_5.index t (1 : Fin 2) * 1 + 1 * (j 1).val; omega
  have h4 : iblk1 (F := Ideal) V c 4 t (Cert.Sage.biasAt j) = V c main_v27 (Cert.Sage.biasAt (((cfg1.win 5).blk t).view.emb j)) := by
    show V c main_v27 (((cfg1.win 4).blk t).view.emb (Cert.Sage.biasAt j)) = _
    refine congrArg (V c main_v27) (funext fun a => Fin.ext ?_)
    match a with
    | ⟨0, _⟩ => show win1_4.index t (0 : Fin 2) * 1 + 1 * 0 = 0; omega
    | ⟨1, _⟩ => show win1_4.index t (1 : Fin 2) * 1 + 1 * (j 1).val = win1_5.index t (1 : Fin 2) * 1 + 1 * (j 1).val; omega
  unfold Cert.Sage.dense
  refine congrArg₂ (FloatOps.addf (F := Ideal) (φ := .f32)) (congrArg₂ (FloatOps.addf (F := Ideal) (φ := .f32)) (Finset.sum_congr rfl fun k _ => ?_) (Finset.sum_congr rfl fun k _ => ?_)) h4
  · rw [h0 k, h2 k]
  · rw [h1 k, h3 k]

/-- WHAT POINT `t` WRITES BACK is tile `t` of the output layer of the arrays the region found. -/
theorem flushed_eq (c : Dev nD) (t : Fin cfg1.N) :
    (dat1 (F := Ideal) V c).flushed 5 t = ((cfg1.win 5).blk t).view.read (Elt Ideal)
      (Cert.Sage.score (V c main_v20) (V c main_v26) (V c main_arg6) (V c main_arg7) (V c main_v27)) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S128x1) hz, View.ld_unit_zero (S := S1x1) hz]
  funext j
  refine (tile_apply (iblk1 (F := Ideal) V c 0 t) (iblk1 (F := Ideal) V c 1 t) (iblk1 (F := Ideal) V c 2 t) (iblk1 (F := Ideal) V c 3 t) (iblk1 (F := Ideal) V c 4 t) j).trans ?_
  exact congrArg (FloatOps.logistic (F := Ideal)) (dense_tile V c t j)

/-- An index of the array is in point `t`'s block iff each coordinate is in the block's range on its axis. -/
theorem mem_blk (t : Fin cfg1.N) (i : S50000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v28).slice (win1_5.rect t)).set ↔ _
  rw [View.set_slice_whole, Rect.mem_set_unit]
  exact Iff.rfl

/-- Every row of the array lies in a tile that is written back: row `r` in tile `r / 2000`. -/
theorem cover (i : S50000x1.Idx) :
    ∃ t : Fin cfg1.N, (cfg1.win 5).flush t = true ∧ i ∈ ((cfg1.win 5).blk t).view.set := by
  have hi0 : (i 0).val < 50000 := (i 0).isLt
  have hi1 : (i 1).val < 1 := (i 1).isLt
  let t : Fin cfg1.N := ⟨(i 0).val / 2000, by show (i 0).val / 2000 < 25; omega⟩
  have ht : t.val = (i 0).val / 2000 := rfl
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 1 ≤ (i 1).val ∧ (i 1).val < win1_5.index t (1 : Fin 2) * 1 + 1; omega

/-- The array the second region leaves is the output layer of the arrays it found. -/
theorem arr1 (c : Dev nD) :
    (dat1 (F := Ideal) V c).arrAt 5 cfg1.N
      = Cert.Sage.score (V c main_v20) (V c main_v26) (V c main_arg6) (V c main_arg7) (V c main_v27) :=
  (dat1 (F := Ideal) V c).arrAt_eq_of_cover 5 _ (fun t _ => flushed_eq V c t) cover

end Cert.KernelIdeal.ScoreTiles

end
-- ==== Proof.Walk.lean ====
/-
  The program's buffers, followed from the launch to the return. Between the two tiled regions the host computes, for
  both layers alike, the in-degree's reciprocal and the mean over in-neighbours (with the filling take); each region
  leaves its layer's array (HiddenTiles, ScoreTiles); the last operation drops the unit axis of the [50000 × 1] column.
-/
import proofs.«417185_j13804024889628_2_alg».proof.Proof.Gen.KernelIdeal.Frame
import proofs.«417185_j13804024889628_2_alg».proof.Proof.Edges
import proofs.«417185_j13804024889628_2_alg».proof.Proof.Model
import proofs.«417185_j13804024889628_2_alg».proof.Proof.HiddenTiles
import proofs.«417185_j13804024889628_2_alg».proof.Proof.ScoreTiles
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Contents carried to a buffer's own type and back are the contents. -/
theorem ofBuf_toBuf {T : BufTy} (x : TRef sig T) (v : T.Contents (Elt Ideal)) : x.ofBuf (x.toBuf v) = v := by
  obtain ⟨r, h, h1, h2⟩ := x
  subst h
  rfl

/-! ## One stretch of host operations at a time, from ANY contents `G` of the buffers -/

/-- The first stretch: the two rows of the edge list and the in-degree's reciprocal. -/
theorem edges0 (G : Valuation τ sig (Elt Ideal)) :
    StableHlo.after hostOps0 G (Proc.devRef .tc main_v1) = Edges.src (G (Proc.devRef .tc main_arg1))
    ∧ StableHlo.after hostOps0 G (Proc.devRef .tc main_v3) = Edges.dst (G (Proc.devRef .tc main_arg1))
    ∧ StableHlo.after hostOps0 G (Proc.devRef .tc main_v12) = Edges.invDeg (F := Ideal) (G (Proc.devRef .tc main_arg1)) := by
  refine ⟨?_, ?_, ?_⟩
  · after_results_simp <;> rfl
  · after_results_simp <;> rfl
  · after_results_simp <;> rfl

/-- The filling take of the first layer: the rows of the table `y` at the edges' sources. -/
theorem take0 (G : Valuation τ sig (Elt Ideal)) (e : IVec S2x600000 32) (y : FVec Ideal S50000x128 .f32)
    (hs : G (Proc.devRef .tc main_v1) = Edges.src e) (hy : G (Proc.devRef .tc main_arg0) = y) :
    StableHlo.after hostOps0_1 G (Proc.devRef .tc main_v13) = Edges.rowsFill e y := by
  after_results_simp
  simp only [ofBuf_toBuf]
  rw [hs, hy]
  simp only [TRef.ofBuf, TRef.toBuf, cast_eq]
  rfl

/-- The filling take of the second layer: the same operations on the hidden layer's array. -/
theorem take1 (G : Valuation τ sig (Elt Ideal)) (e : IVec S2x600000 32) (y : FVec Ideal S50000x128 .f32)
    (hs : G (Proc.devRef .tc main_v1) = Edges.src e) (hy : G (Proc.devRef .tc main_v20) = y) :
    StableHlo.after hostOps1 G (Proc.devRef .tc main_v21) = Edges.rowsFill e y := by
  after_results_simp
  simp only [ofBuf_toBuf]
  rw [hs, hy]
  simp only [TRef.ofBuf, TRef.toBuf, cast_eq]
  rfl

/-- The first layer's neighbour means of the fetched rows, and its bias as a row. -/
theorem mean0 (G : Valuation τ sig (Elt Ideal)) (e : IVec S2x600000 32) (rows : FVec Ideal S600000x128 .f32)
    (hd : G (Proc.devRef .tc main_v3) = Edges.dst e) (hi : G (Proc.devRef .tc main_v12) = Edges.invDeg (F := Ideal) e)
    (hr : G (Proc.devRef .tc main_v13) = rows) :
    StableHlo.after hostOps0_2 G (Proc.devRef .tc main_v18) = Edges.meanOf e rows := by
  after_results_simp
  rw [hd, hi, hr]
  rfl

theorem bias0 (G : Valuation τ sig (Elt Ideal)) :
    StableHlo.after hostOps0_2 G (Proc.devRef .tc main_v19) = shapeCast S1x128 (G (Proc.devRef .tc main_arg5)) shapeCasts_S128_S1x128 := by
  after_results_simp <;> rfl

/-- The second layer's neighbour means of the fetched rows, and its bias as a [1 × 1] array. -/
theorem mean1 (G : Valuation τ sig (Elt Ideal)) (e : IVec S2x600000 32) (rows : FVec Ideal S600000x128 .f32)
    (hd : G (Proc.devRef .tc main_v3) = Edges.dst e) (hi : G (Proc.devRef .tc main_v12) = Edges.invDeg (F := Ideal) e)
    (hr : G (Proc.devRef .tc main_v21) = rows) :
    StableHlo.after hostOps1_1 G (Proc.devRef .tc main_v26) = Edges.meanOf e rows := by
  after_results_simp
  rw [hd, hi, hr]
  rfl

theorem bias1 (G : Valuation τ sig (Elt Ideal)) :
    StableHlo.after hostOps1_1 G (Proc.devRef .tc main_v27) = shapeCast S1x1 (G (Proc.devRef .tc main_arg8)) shapeCasts_S1_S1x1 := by
  after_results_simp <;> rfl

/-! ## The contents at the first region's entry -/

theorem W3_v1 (c : Dev nD) : W3 (F := Ideal) m ρ c (Proc.devRef .tc main_v1) = Edges.src (m ((c : Thread nD τ).loc main_arg1)) := by
  show StableHlo.after hostOps0_2 (StableHlo.after hostOps0_1 (StableHlo.after hostOps0 (W0 m ρ c))) _ = _
  after_results_simp <;> rfl
theorem W3_v3 (c : Dev nD) : W3 (F := Ideal) m ρ c (Proc.devRef .tc main_v3) = Edges.dst (m ((c : Thread nD τ).loc main_arg1)) := by
  show StableHlo.after hostOps0_2 (StableHlo.after hostOps0_1 (StableHlo.after hostOps0 (W0 m ρ c))) _ = _
  after_results_simp <;> rfl
theorem W3_v12 (c : Dev nD) : W3 (F := Ideal) m ρ c (Proc.devRef .tc main_v12) = Edges.invDeg (F := Ideal) (m ((c : Thread nD τ).loc main_arg1)) := by
  show StableHlo.after hostOps0_2 (StableHlo.after hostOps0_1 (StableHlo.after hostOps0 (W0 m ρ c))) _ = _
  after_results_simp <;> rfl
theorem W3_arg0 (c : Dev nD) : W3 (F := Ideal) m ρ c (Proc.devRef .tc main_arg0) = (m ((c : Thread nD τ).loc main_arg0)) := by
  show StableHlo.after hostOps0_2 (StableHlo.after hostOps0_1 (StableHlo.after hostOps0 (W0 m ρ c))) _ = _
  after_results_simp <;> rfl
theorem W3_arg3 (c : Dev nD) : W3 (F := Ideal) m ρ c (Proc.devRef .tc main_arg3) = (m ((c : Thread nD τ).loc main_arg3)) := by
  show StableHlo.after hostOps0_2 (StableHlo.after hostOps0_1 (StableHlo.after hostOps0 (W0 m ρ c))) _ = _
  after_results_simp <;> rfl
theorem W3_arg4 (c : Dev nD) : W3 (F := Ideal) m ρ c (Proc.devRef .tc main_arg4) = (m ((c : Thread nD τ).loc main_arg4)) := by
  show StableHlo.after hostOps0_2 (StableHlo.after hostOps0_1 (StableHlo.after hostOps0 (W0 m ρ c))) _ = _
  after_results_simp <;> rfl
theorem W3_arg5 (c : Dev nD) : W3 (F := Ideal) m ρ c (Proc.devRef .tc main_arg5) = (m ((c : Thread nD τ).loc main_arg5)) := by
  show StableHlo.after hostOps0_2 (StableHlo.after hostOps0_1 (StableHlo.after hostOps0 (W0 m ρ c))) _ = _
  after_results_simp <;> rfl
theorem W3_arg6 (c : Dev nD) : W3 (F := Ideal) m ρ c (Proc.devRef .tc main_arg6) = (m ((c : Thread nD τ).loc main_arg6)) := by
  show StableHlo.after hostOps0_2 (StableHlo.after hostOps0_1 (StableHlo.after hostOps0 (W0 m ρ c))) _ = _
  after_results_simp <;> rfl
theorem W3_arg7 (c : Dev nD) : W3 (F := Ideal) m ρ c (Proc.devRef .tc main_arg7) = (m ((c : Thread nD τ).loc main_arg7)) := by
  show StableHlo.after hostOps0_2 (StableHlo.after hostOps0_1 (StableHlo.after hostOps0 (W0 m ρ c))) _ = _
  after_results_simp <;> rfl
theorem W3_arg8 (c : Dev nD) : W3 (F := Ideal) m ρ c (Proc.devRef .tc main_arg8) = (m ((c : Thread nD τ).loc main_arg8)) := by
  show StableHlo.after hostOps0_2 (StableHlo.after hostOps0_1 (StableHlo.after hostOps0 (W0 m ρ c))) _ = _
  after_results_simp <;> rfl

theorem W2_v13 (c : Dev nD) : W2 (F := Ideal) m ρ c (Proc.devRef .tc main_v13) = Edges.rowsFill (F := Ideal) (m ((c : Thread nD τ).loc main_arg1)) (m ((c : Thread nD τ).loc main_arg0)) :=
  take0 (W1 m ρ c) _ _ (edges0 (W0 m ρ c)).1 (by show StableHlo.after hostOps0 (W0 m ρ c) _ = _; after_results_simp <;> rfl)

theorem W3_v18 (c : Dev nD) : W3 (F := Ideal) m ρ c (Proc.devRef .tc main_v18) = Edges.meanAggFill (F := Ideal) (m ((c : Thread nD τ).loc main_arg1)) (m ((c : Thread nD τ).loc main_arg0)) :=
  mean0 (W2 m ρ c) _ _
    (by show StableHlo.after hostOps0_1 (StableHlo.after hostOps0 (W0 m ρ c)) _ = _; after_results_simp <;> rfl)
    (by show StableHlo.after hostOps0_1 (StableHlo.after hostOps0 (W0 m ρ c)) _ = _; after_results_simp <;> rfl)
    (W2_v13 m ρ c)

theorem W3_v19 (c : Dev nD) : W3 (F := Ideal) m ρ c (Proc.devRef .tc main_v19) = shapeCast S1x128 (m ((c : Thread nD τ).loc main_arg5)) shapeCasts_S128_S1x128 :=
  (bias0 (W2 m ρ c)).trans (congrArg (fun b => shapeCast S1x128 b shapeCasts_S128_S1x128)
    (by show StableHlo.after hostOps0_1 (StableHlo.after hostOps0 (W0 m ρ c)) _ = _; after_results_simp <;> rfl))

/-! ## The hidden layer's array, at the first region's exit -/

/-- The hidden layer of the launched arguments, the neighbour means taken with the filling take. -/
abbrev hid (c : Dev nD) : FVec Ideal S50000x128 .f32 :=
  Model.hiddenOf Edges.meanAggFill (m ((c : Thread nD τ).loc main_arg0)) (m ((c : Thread nD τ).loc main_arg1)) (m ((c : Thread nD τ).loc main_arg3)) (m ((c : Thread nD τ).loc main_arg4)) (m ((c : Thread nD τ).loc main_arg5))

theorem W4_v20 (c : Dev nD) : W4 (F := Ideal) m ρ c (Proc.devRef .tc main_v20) = hid m c := by
  refine (W4_arr m ρ c 5).trans ((HiddenTiles.arr0 (V3 m ρ) c).trans ?_)
  show Cert.Sage.hidden (W3 m ρ c (Proc.devRef .tc main_arg0)) (W3 m ρ c (Proc.devRef .tc main_v18)) (W3 m ρ c (Proc.devRef .tc main_arg3))
    (W3 m ρ c (Proc.devRef .tc main_arg4)) (W3 m ρ c (Proc.devRef .tc main_v19)) = _
  rw [W3_arg0, W3_v18, W3_arg3, W3_arg4, W3_v19]
  rfl

theorem W4_keep (c : Dev nD) (b : Ref sig .tc) (hb : ∀ w, Pipeline.arrRef spec0 w ≠ b) :
    W4 (F := Ideal) m ρ c (Proc.devRef .tc b) = W3 m ρ c (Proc.devRef .tc b) := W4_of_ne m ρ c b hb

/-! ## The contents at the second region's entry -/

theorem W5_v21 (c : Dev nD) : W5 (F := Ideal) m ρ c (Proc.devRef .tc main_v21) = Edges.rowsFill (F := Ideal) (m ((c : Thread nD τ).loc main_arg1)) (hid m c) :=
  take1 (W4 m ρ c) _ _ ((W4_keep m ρ c main_v1 (by decide)).trans (W3_v1 m ρ c)) (W4_v20 m ρ c)

theorem W6_v26 (c : Dev nD) : W6 (F := Ideal) m ρ c (Proc.devRef .tc main_v26) = Edges.meanAggFill (F := Ideal) (m ((c : Thread nD τ).loc main_arg1)) (hid m c) :=
  mean1 (W5 m ρ c) _ _
    ((show StableHlo.after hostOps1 (W4 m ρ c) _ = W4 m ρ c (Proc.devRef .tc main_v3) by after_results_simp).trans
      ((W4_keep m ρ c main_v3 (by decide)).trans (W3_v3 m ρ c)))
    ((show StableHlo.after hostOps1 (W4 m ρ c) _ = W4 m ρ c (Proc.devRef .tc main_v12) by after_results_simp).trans
      ((W4_keep m ρ c main_v12 (by decide)).trans (W3_v12 m ρ c)))
    (W5_v21 m ρ c)

theorem W6_v27 (c : Dev nD) : W6 (F := Ideal) m ρ c (Proc.devRef .tc main_v27) = shapeCast S1x1 (m ((c : Thread nD τ).loc main_arg8)) shapeCasts_S1_S1x1 :=
  (bias1 (W5 m ρ c)).trans (congrArg (fun b => shapeCast S1x1 b shapeCasts_S1_S1x1)
    ((show StableHlo.after hostOps1 (W4 m ρ c) _ = W4 m ρ c (Proc.devRef .tc main_arg8) by after_results_simp).trans
      ((W4_keep m ρ c main_arg8 (by decide)).trans (W3_arg8 m ρ c))))

theorem W6_v20 (c : Dev nD) : W6 (F := Ideal) m ρ c (Proc.devRef .tc main_v20) = hid m c :=
  (show StableHlo.after hostOps1_1 (StableHlo.after hostOps1 (W4 m ρ c)) _ = W4 m ρ c (Proc.devRef .tc main_v20) by after_results_simp).trans
    (W4_v20 m ρ c)

theorem W6_arg6 (c : Dev nD) : W6 (F := Ideal) m ρ c (Proc.devRef .tc main_arg6) = (m ((c : Thread nD τ).loc main_arg6)) :=
  (show StableHlo.after hostOps1_1 (StableHlo.after hostOps1 (W4 m ρ c)) _ = W4 m ρ c (Proc.devRef .tc main_arg6) by after_results_simp).trans
    ((W4_keep m ρ c main_arg6 (by decide)).trans (W3_arg6 m ρ c))

theorem W6_arg7 (c : Dev nD) : W6 (F := Ideal) m ρ c (Proc.devRef .tc main_arg7) = (m ((c : Thread nD τ).loc main_arg7)) :=
  (show StableHlo.after hostOps1_1 (StableHlo.after hostOps1 (W4 m ρ c)) _ = W4 m ρ c (Proc.devRef .tc main_arg7) by after_results_simp).trans
    ((W4_keep m ρ c main_arg7 (by decide)).trans (W3_arg7 m ρ c))

/-! ## The result -/

/-- The program's result buffer at the return: the model of the launched arguments, with the filling take. -/
theorem result (c : Dev nD) : W8 (F := Ideal) m ρ c (Proc.devRef .tc main_v29)
    = Model.outOf Edges.meanAggFill (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h28 : W7 (F := Ideal) m ρ c (Proc.devRef .tc main_v28)
      = Cert.Sage.score (hid m c) (Edges.meanAggFill (F := Ideal) (m ((c : Thread nD τ).loc main_arg1)) (hid m c)) (m ((c : Thread nD τ).loc main_arg6)) (m ((c : Thread nD τ).loc main_arg7)) (shapeCast S1x1 (m ((c : Thread nD τ).loc main_arg8)) shapeCasts_S1_S1x1) := by
    refine (W7_arr m ρ c 5).trans ((ScoreTiles.arr1 (V6 m ρ) c).trans ?_)
    show Cert.Sage.score (W6 m ρ c (Proc.devRef .tc main_v20)) (W6 m ρ c (Proc.devRef .tc main_v26)) (W6 m ρ c (Proc.devRef .tc main_arg6))
      (W6 m ρ c (Proc.devRef .tc main_arg7)) (W6 m ρ c (Proc.devRef .tc main_v27)) = _
    rw [W6_v20, W6_v26, W6_arg6, W6_arg7, W6_v27]
  show StableHlo.after hostOps2 (W7 m ρ c) _ = _
  after_results_simp
  rw [h28]
  rfl

end Cert.KernelIdeal.Walk

end
-- ==== Proof.TakeInRange.lean ====
/-
  Under the precondition every edge's source number lies in [−50000, 50000): counted from the end when negative it is a
  node number in [0, 49999], so the filling take's range test passes on every edge and the take fills nothing — it is the
  plain row fetch.
-/
import proofs.«417185_j13804024889628_2_alg».proof.Defs
import proofs.«417185_j13804024889628_2_alg».proof.Proof.Gen.Pre_finite_inputs
import proofs.«417185_j13804024889628_2_alg».proof.Proof.Edges
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.Edges

open Cert.KernelIdeal Cert.KernelIdeal.Facts₀ Cert.KernelIdeal.Facts Idealize.ShloMosaic Idealize.ShloMosaic.TcCoe Idealize.SL.Sem

variable {F : FTy → Type} [FloatOps F]

/-! ## One word: a source number in [−50000, 50000), counted from the end when negative, is a node number -/

/-- A 32-bit word whose signed value lies in [−50000, 50000), with 50000 added when it is negative, has its signed value
    in [0, 49999]. -/
private theorem wrap_bounds (s : BitVec 32) (h1 : -50000 ≤ s.toInt) (h2 : s.toInt < 50000) :
    0 ≤ (if BitVec.slt s 0#32 then s + 50000#32 else s).toInt
      ∧ (if BitVec.slt s 0#32 then s + 50000#32 else s).toInt ≤ 49999 := by
  have h0 : (0#32 : BitVec 32).toInt = 0 := by decide
  by_cases hs : BitVec.slt s 0#32 = true
  · rw [if_pos hs]
    rw [BitVec.slt_iff_toInt_lt, h0] at hs
    rw [BitVec.toInt_eq_toNat_cond] at h1 h2 hs
    rw [BitVec.toInt_eq_toNat_cond, BitVec.toNat_add]
    have h5 : (50000#32 : BitVec 32).toNat = 50000 := by decide
    rw [h5]
    have hlt := s.isLt
    split at h1 <;> split <;> omega
  · rw [if_neg hs]
    rw [BitVec.slt_iff_toInt_lt, h0] at hs
    omega

/-- A left fold by `and` from 1 over one-bit words that are all 1 is 1. -/
private theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..)]
    have h11 : IntOp.andi (1#1 : BitVec 1) 1#1 = 1#1 := by decide
    rw [h11]
    exact ih (fun n hn => h n (List.mem_cons_of_mem _ hn))

/-! ## The wrapped source of every edge is a node number, and the range test passes -/

/-- The wrapped source at an edge is the source with 50000 added when it is negative. -/
private theorem srcWrapped_apply (e : IVec S2x600000 32) (i : S600000.Idx) :
    srcWrapped e i = if BitVec.slt (src e i) 0#32 then src e i + 50000#32 else src e i := by
  show Scalar.select (BitVec.ofBool (BitVec.slt (src e i) 0#32)) (src e i + 50000#32) (src e i) = _
  generalize BitVec.slt (src e i) 0#32 = b
  cases b <;> rfl

private theorem srcWrapped_bounds (e : IVec S2x600000 32) (h : SrcInRange e) (i : S600000.Idx) :
    0 ≤ (srcWrapped e i).toInt ∧ (srcWrapped e i).toInt ≤ 49999 := by
  rw [srcWrapped_apply]
  exact wrap_bounds (src e i) (h i).1 (h i).2

/-- With every source number in range the range test is 1 at every edge. -/
private theorem inRange_eq_one (e : IVec S2x600000 32) (h : SrcInRange e) (i : S600000.Idx) : inRange e i = 1#1 := by
  unfold inRange
  rw [Host.reduce_eq_foldl]
  refine foldl_andi_ones _ _ (fun k _ => ?_)
  -- the element at k: the two comparisons of the wrapped source of k's edge
  show IntOp.andi (IntOp.cmpi .sge (srcWrapped e _) 0#32) (IntOp.cmpi .sle (srcWrapped e _) 49999#32) = 1#1
  have hw := srcWrapped_bounds e h
  rw [IntOp.andi_eq_one]
  have h0 : (0#32 : BitVec 32).toInt = 0 := by decide
  have h9 : (49999#32 : BitVec 32).toInt = 49999 := by decide
  constructor
  · unfold IntOp.cmpi
    rw [StableHlo.Predicate.ofBool_eq_one_iff, BitVec.sle_iff_toInt_le, h0]
    exact (hw _).1
  · unfold IntOp.cmpi
    rw [StableHlo.Predicate.ofBool_eq_one_iff, BitVec.sle_iff_toInt_le, h9]
    exact (hw _).2

/-- With every source number in range the filling take fills nothing. -/
theorem rowsFill_eq (e : IVec S2x600000 32) (h : SrcInRange e) (y : FVec F S50000x128 .f32) :
    rowsFill e y = rowsOf e y := by
  funext j
  have hm : broadcastInDim S600000x128 ![0] bcast_S600000_S600000x128_0 (inRange e) j = 1#1 := by
    unfold broadcastInDim
    exact inRange_eq_one e h _
  simp only [rowsFill, select]
  rw [hm]
  unfold Scalar.select
  exact if_pos rfl

/-! ## The precondition's last conjunct, read back -/

/-- The precondition says so of the edge list the program is launched with. -/
theorem srcInRange_of_pre (m : (ℓ : Loc nD τ sig) → Buf (Elt Ideal) ℓ) (h : Cert.Pre_KernelIdeal m) (c : Dev nD) :
    SrcInRange (m ((c.tc : Thread nD τ).loc main_arg1)) := by
  intro i
  -- the rank-zero result has one index
  haveI : Subsingleton Cert.Pre_finite_inputs.S_.Idx := ⟨fun a b => funext fun d => d.elim0⟩
  have h0 := congrFun (h c) (fun d => d.elim0)
  unfold Cert.Pre_finite_inputs.fn Cert.Pre_finite_inputs.fn_part1 Cert.Pre_finite_inputs.fn_part2 at h0
  dsimp only at h0
  -- the last conjunct: the conjunction over all edges of the two comparisons
  have h1 := (IntOp.andi_eq_one.1 h0).2
  have h2 := Host.reduce_andi_all _ _ _ _ _ h1 i
  have h3 : IntOp.andi (IntOp.cmpi .sge (src (m ((c.tc : Thread nD τ).loc main_arg1)) i) 4294917296#32)
      (IntOp.cmpi .slt (src (m ((c.tc : Thread nD τ).loc main_arg1)) i) 50000#32) = 1#1 := h2
  obtain ⟨ha, hb⟩ := IntOp.andi_eq_one.1 h3
  unfold IntOp.cmpi at ha hb
  rw [StableHlo.Predicate.ofBool_eq_one_iff, BitVec.sle_iff_toInt_le] at ha
  rw [StableHlo.Predicate.ofBool_eq_one_iff, BitVec.slt_iff_toInt_lt] at hb
  have hlo : (4294917296#32 : BitVec 32).toInt = -50000 := by decide
  have hhi : (50000#32 : BitVec 32).toInt = 50000 := by decide
  rw [hlo] at ha
  rw [hhi] at hb
  exact ⟨ha, hb⟩

end Cert.KernelIdeal.Edges

end
-- ==== Proof.RefValue.lean ====
/-
  The reference, read the same way. Its hidden layer is the first update of the features and their (plain) neighbour means
  clamped at zero; its result the logistic function, spelt 1 / (1 + e^(-z)), of the second update. Operation by operation
  the reference's stages read at an index are the sums and the pointwise operations of the model; its two matrix products
  over all 50000 rows at once are, row by row, the same sums over the 128 features.
-/
import proofs.«417185_j13804024889628_2_alg».proof.Proof.Gen.ReferenceIdeal.Read
import proofs.«417185_j13804024889628_2_alg».proof.Proof.Model
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Read Idealize.ShloMosaic

variable (x : (⟨S50000x128, .f32⟩ : BufTy).Contents (Elt Ideal)) (e : (⟨S2x600000, .i32⟩ : BufTy).Contents (Elt Ideal))
  (w3 w4 : (⟨S128x128, .f32⟩ : BufTy).Contents (Elt Ideal)) (b5 : (⟨S128, .f32⟩ : BufTy).Contents (Elt Ideal))
  (w6 w7 : (⟨S128x1, .f32⟩ : BufTy).Contents (Elt Ideal)) (b8 : (⟨S1, .f32⟩ : BufTy).Contents (Elt Ideal))

/-- The reference's first neighbour mean is the plain mean of the features. -/
theorem agg1_eq : val_main_v24 (F := Ideal) x e = Cert.KernelIdeal.Edges.meanAgg (F := Ideal) e x := rfl

/-- The reference's second neighbour mean is the plain mean of its hidden layer. -/
theorem agg2_eq : val_main_v43 (F := Ideal) x e w3 w4 b5 = Cert.KernelIdeal.Edges.meanAgg (F := Ideal) e (val_main_v31 (F := Ideal) x e w3 w4 b5) := rfl

/-- The reference's hidden layer is the model's. -/
theorem hidden_eq : val_main_v31 (F := Ideal) x e w3 w4 b5 = Cert.KernelIdeal.Model.hiddenOf Cert.KernelIdeal.Edges.meanAgg x e w3 w4 b5 := by
  funext i
  rw [val_main_v31_apply, val_main_v30_apply, val_main_v27_apply, val_main_v25_apply, val_main_v26_apply, val_main_v29_apply,
    val_main_v28_apply, val_main_call0_v0_apply, val_main_call0_cst_apply, agg1_eq]
  unfold Cert.KernelIdeal.Model.hiddenOf Cert.Sage.hidden Cert.Sage.dense
  have hl25 : ∀ k, lidx_main_v25 i k = Cert.Sage.featAt i k := fun k => funext fun a => by
    match a with
    | ⟨0, _⟩ => rfl
    | ⟨1, _⟩ => rfl
  have hr25 : ∀ k, ridx_main_v25 i k = Cert.Sage.weightAt i k := fun k => funext fun a => by
    match a with
    | ⟨0, _⟩ => rfl
    | ⟨1, _⟩ => rfl
  have hl26 : ∀ k, lidx_main_v26 i k = Cert.Sage.featAt i k := fun k => funext fun a => by
    match a with
    | ⟨0, _⟩ => rfl
    | ⟨1, _⟩ => rfl
  have hr26 : ∀ k, ridx_main_v26 i k = Cert.Sage.weightAt i k := fun k => funext fun a => by
    match a with
    | ⟨0, _⟩ => rfl
    | ⟨1, _⟩ => rfl
  -- the bias read as a row, at column j, is the bias at j
  have hb : shapeCast Cert.KernelIdeal.S1x128 b5 Cert.KernelIdeal.Facts₀.shapeCasts_S128_S1x128 (Cert.Sage.biasAt i) = b5 (idx_main_v28 (idx_main_v29 i)) :=
    shapeCast_apply b5 _ (Cert.Sage.biasAt i) (idx_main_v28 (idx_main_v29 i))
      (by rewrite [Shape.rowMajor_val_one, Shape.rowMajor_val_two]; show (i 1).val = 0 * 128 + (i 1).val; omega)
  simp only [hl25, hr25, hl26, hr26, hb]

/-- The reference's result is the model's, with the plain neighbour means. -/
theorem out_eq : val_main_v56 (F := Ideal) x e w3 w4 b5 w6 w7 b8
    = Cert.KernelIdeal.Model.outOf Cert.KernelIdeal.Edges.meanAgg x e w3 w4 b5 w6 w7 b8 := by
  funext i
  rw [val_main_v56_apply, val_main_v55_apply, val_main_cst_9_apply, val_main_v54_apply, val_main_v53_apply, val_main_cst_8_apply,
    val_main_v52_apply, val_main_v51_apply, val_main_v50_apply, val_main_v49_apply, val_main_v46_apply, val_main_v44_apply,
    val_main_v45_apply, val_main_v48_apply, val_main_v47_apply, agg2_eq, hidden_eq]
  unfold Cert.KernelIdeal.Model.outOf
  -- the vector at i is the column at (i, 0)
  rw [shapeCast_apply _ Cert.KernelIdeal.Facts₀.shapeCasts_S50000x1_S50000 i (idx_main_v50 i)
    (by rewrite [Shape.rowMajor_val_two, Shape.rowMajor_val_one]; show ((i 0).val) / 1 * 1 + 0 = (i 0).val; omega)]
  unfold Cert.Sage.score Cert.Sage.dense
  have hl44 : ∀ k, lidx_main_v44 (idx_main_v50 i) k = Cert.Sage.featAt (idx_main_v50 i) k := fun k => funext fun a => by
    match a with
    | ⟨0, _⟩ => rfl
    | ⟨1, _⟩ => rfl
  have hr44 : ∀ k, ridx_main_v44 (idx_main_v50 i) k = Cert.Sage.weightAt (idx_main_v50 i) k := fun k => funext fun a => by
    match a with
    | ⟨0, _⟩ => rfl
    | ⟨1, _⟩ => rfl
  have hl45 : ∀ k, lidx_main_v45 (idx_main_v50 i) k = Cert.Sage.featAt (idx_main_v50 i) k := fun k => funext fun a => by
    match a with
    | ⟨0, _⟩ => rfl
    | ⟨1, _⟩ => rfl
  have hr45 : ∀ k, ridx_main_v45 (idx_main_v50 i) k = Cert.Sage.weightAt (idx_main_v50 i) k := fun k => funext fun a => by
    match a with
    | ⟨0, _⟩ => rfl
    | ⟨1, _⟩ => rfl
  -- the one bias number, read as a [1 × 1] array
  have hb : shapeCast Cert.KernelIdeal.S1x1 b8 Cert.KernelIdeal.Facts₀.shapeCasts_S1_S1x1 (Cert.Sage.biasAt (idx_main_v50 i))
      = b8 (idx_main_v47 (idx_main_v48 (idx_main_v50 i))) :=
    shapeCast_apply b8 _ (Cert.Sage.biasAt (idx_main_v50 i)) (idx_main_v47 (idx_main_v48 (idx_main_v50 i)))
      (by rewrite [Shape.rowMajor_val_one, Shape.rowMajor_val_two]; show 0 = 0 * 1 + 0; rfl)
  simp only [hl44, hr44, hl45, hr45, hb]
  -- 1 / (1 + e^(-z)) is the logistic function of z
  simp only [Ideal.hostDivf_def, Ideal.hostUnary_exp_def, Ideal.hostNegf_def, Ideal.negf_def, Ideal.logistic_def, Ideal.ofBits_def,
    Ideal.ofBits_one_f32, Ideal.logistic, Ideal.addf_def]

end Cert.ReferenceIdeal.RefValue

end
-- ==== Proof.lean ====
/-
  A two-layer GraphSAGE with mean aggregation, its two dense updates run as tiled kernels, against the plain jnp program.

  Both programs compute, from the edge list, the reciprocal in-degree and — per layer — the mean over each node's in-neighbours
  of the rows fetched at the edges' sources; then the dense update (self product + neighbour product + bias), clamped at zero
  in the first layer and passed through the logistic function in the second. Over the extended reals the two programs differ
  in two ways only. (1) The kernel computes each update tile by tile, 2000 rows at a time, with the operands narrowed before the
  product: at the ideal values a change of format is the identity and a matrix product is the plain sum over the 128 features
  whatever the tiling, so each region leaves exactly the layer's array (HiddenTiles, ScoreTiles). (2) The kernel fetches rows
  with a take that fills a row whose source number, counted from the end when negative, is not a node; the reference's fetch
  clamps instead. Under the precondition — every source number in [−50000, 50000) — the take fills nothing (TakeInRange), and
  the two fetches are one. The reference's 1 / (1 + e^(-z)) is the logistic function (RefValue).
-/
import proofs.«417185_j13804024889628_2_alg».proof.Defs
import proofs.«417185_j13804024889628_2_alg».proof.Proof.Gen.Kernel
import proofs.«417185_j13804024889628_2_alg».proof.Proof.Gen.Kernel.Skeleton
import proofs.«417185_j13804024889628_2_alg».proof.Proof.Gen.Kernel.Launch
import proofs.«417185_j13804024889628_2_alg».proof.Proof.Gen.Kernel.Points
import proofs.«417185_j13804024889628_2_alg».proof.Proof.Gen.Kernel.Frame
import proofs.«417185_j13804024889628_2_alg».proof.Proof.Gen.KernelIdeal
import proofs.«417185_j13804024889628_2_alg».proof.Proof.Gen.KernelIdeal.Skeleton
import proofs.«417185_j13804024889628_2_alg».proof.Proof.Gen.KernelIdeal.Launch
import proofs.«417185_j13804024889628_2_alg».proof.Proof.Gen.KernelIdeal.Points
import proofs.«417185_j13804024889628_2_alg».proof.Proof.Gen.KernelIdeal.Frame
import proofs.«417185_j13804024889628_2_alg».proof.Proof.Gen.ReferenceIdeal
import proofs.«417185_j13804024889628_2_alg».proof.Proof.Gen.Pre_finite_inputs
import proofs.«417185_j13804024889628_2_alg».proof.Proof.Gen.ReferenceIdeal.Run
import proofs.«417185_j13804024889628_2_alg».proof.Proof.Gen.ReferenceIdeal.Read
import proofs.«417185_j13804024889628_2_alg».proof.Proof.RunValue
import proofs.«417185_j13804024889628_2_alg».proof.Proof.Walk
import proofs.«417185_j13804024889628_2_alg».proof.Proof.TakeInRange
import proofs.«417185_j13804024889628_2_alg».proof.Proof.RefValue
import Idealize.ShloMosaic.Adequacy
import Idealize.ShloMosaic.Init

noncomputable section

namespace Cert.Proof

open Idealize.ShloMosaic Idealize.SL.Sem

/-- With every source number in range, the neighbour mean built on the filling take is the plain neighbour mean. -/
theorem meanAggFill_eq (e : IVec Cert.KernelIdeal.S2x600000 32) (h : Cert.KernelIdeal.Edges.SrcInRange e) :
    Cert.KernelIdeal.Edges.meanAggFill (F := Ideal) e = Cert.KernelIdeal.Edges.meanAgg (F := Ideal) e :=
  funext fun y => by
    unfold Cert.KernelIdeal.Edges.meanAggFill Cert.KernelIdeal.Edges.meanAgg
    rw [Cert.KernelIdeal.Edges.rowsFill_eq e h y]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the model's result of the launched arguments: the kernel by following its buffers through the two
    tiled regions (the filling take filling nothing under the precondition), the reference by reading its stages. -/
theorem algebraic : Cert.algebraic_KernelIdeal_ReferenceIdeal := by
  intro m ρ m' ρ' hpre hagree
  refine ⟨fun c => Cert.KernelIdeal.Model.outOf Cert.KernelIdeal.Edges.meanAgg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RunValue.run_main (F := Ideal) m ρ)
    rw [Cert.KernelIdeal.Walk.result m ρ c]
    unfold Cert.KernelIdeal.Model.outOf Cert.KernelIdeal.Model.hiddenOf
    rw [meanAggFill_eq _ (Cert.KernelIdeal.Edges.srcInRange_of_pre m hpre c)]
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v56_eq, Cert.ReferenceIdeal.RefValue.out_eq, h0, h1, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
